-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S1x1 : Shape := ⟨2, ![1, 1]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1, .f32⟩
  | .hbm, ⟨2, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x1, .f32⟩
  | .local _ .vmem, ⟨3, _⟩ => ⟨S1x1024, .f32⟩
  | .local _ .vmem, ⟨4, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S1x1_S_ : S1x1.ShapeCasts S_
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  reduces_S1024x1024_S1024_2 : S1024x1024.Reduces [1] S1024
  shapeCasts_S1024_S1024x1 : S1024.ShapeCasts S1024x1
  reduces_S1024x1_S1 : S1024x1.Reduces [0] S1
  shapeCasts_S1_S1x1 : S1.ShapeCasts S1x1
  reduces_S1x1024_S1 : S1x1024.Reduces [1] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x8192 : Shape := ⟨2, ![1024, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8192, .f32⟩
  | .hbm, ⟨2, _⟩ => ⟨S8192x8192, .f32⟩
  | .hbm, ⟨3, _⟩ => ⟨S8192x8192, .i32⟩
  | .hbm, ⟨4, _⟩ => ⟨S_, .i32⟩
  | .hbm, ⟨5, _⟩ => ⟨S8192x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KernelPieces.lean ====
/-
  What each control case of the kernel body leaves behind, as values.

  The body runs in one of three cases: at the first tile it resets both accumulators and then updates them; at the middle
  tiles it only updates them; at the last tile it updates them and then stores the result computed from them. Each
  accumulator is overwritten whole by its last store, and a load that follows a store of the same buffer reads what was
  stored. So the column-sum accumulator ends a case at its update applied to the tile and to what it held before (zero
  after a reset), likewise the sum-of-squares accumulator, and the last case's output is the result computed from the two
  updated accumulators.
-/
import proofs.«139503_j21088289423831_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelPieces

open Cert.KernelIdeal Cert.KernelIdeal.Gen

variable {F : FTy → Type} [FloatOps F]

theorem hz : (![0, 0] : Fin 2 → Nat) = fun _ => 0 := funext fun a => by fin_cases a <;> rfl

section Cases

variable (c : Dev nD) (i : grid0.Coords) (a1 : Memref sig .tc .vmem S1024x1024 .f32) (h1 : a1.IsWhole)
  (a2 : Memref sig .tc .vmem S1x1 .f32) (h2 : a2.IsWhole) (a3 : Memref sig .tc .vmem S1x1024 .f32) (h3 : a3.IsWhole)
  (a4 : Memref sig .tc .vmem S1x1 .f32) (h4 : a4.IsWhole)

/-! ## The first tile: reset, then update -/

/-- First tile: the column-sum accumulator ends at its update applied to the tile and to the zero row it was reset to. -/
theorem colAcc_A (hc0 : cond0_0 i) (hc1 : ¬cond0_1 i) (x : Vec F S1024x1024 .f32) :
    sout0_A_0 c i a1 h1 a2 h2 a3 h3 a4 h4 hc0 hc1 x = k0_pay3 x (k0_pay1 (F := F)) := by
  unfold sout0_A_0
  rw [View.read_writes_eq_canon _ _ _ (scover0_A_0 c i a1 h1 a2 h2 a3 h3 a4 h4 hc0 hc1 x)]
  unfold kernelRun0_A
  dsimp only
  sl_unfold_words
  rw [View.canon_cons_unit_zero (S := S1x1024) hz, View.readCov_unit_zero (S := S1x1024) _ hz]
  simp only [View.readAt_eq_ld, h1.read_unread, View.ld_unit_zero (S := S1024x1024) hz]

/-- First tile: the sum-of-squares accumulator ends at its update applied to the tile and to the zero it was reset to. -/
theorem sqAcc_A (hc0 : cond0_0 i) (hc1 : ¬cond0_1 i) (x : Vec F S1024x1024 .f32) :
    sout0_A_1 c i a1 h1 a2 h2 a3 h3 a4 h4 hc0 hc1 x = k0_pay4 x (k0_pay2 (F := F)) := by
  unfold sout0_A_1
  rw [View.read_writes_eq_canon _ _ _ (scover0_A_1 c i a1 h1 a2 h2 a3 h3 a4 h4 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S1024x1024) hz]

/-! ## A middle tile: update only -/

/-- Middle tile: the column-sum accumulator ends at its update applied to the tile and to what it held. -/
theorem colAcc_B (hc0 : ¬cond0_0 i) (hc1 : ¬cond0_1 i) (x : Vec F S1024x1024 .f32) (xs0 : Vec F S1x1024 .f32) (xs1 : Vec F S1x1 .f32) :
    sout0_B_0 c i a1 h1 a2 h2 a3 h3 a4 h4 hc0 hc1 x xs0 xs1 = k0_pay3 x xs0 := by
  unfold sout0_B_0
  rw [View.read_writes_eq_canon _ _ _ (scover0_B_0 c i a1 h1 a2 h2 a3 h3 a4 h4 hc0 hc1 x xs0 xs1)]
  unfold kernelRun0_B
  dsimp only
  rw [View.canon_unit_zero (S := S1x1024) hz]
  simp only [View.readAt_eq_ld, h1.read_unread, h3.read_unread, View.ld_unit_zero (S := S1024x1024) hz,
    View.ld_unit_zero (S := S1x1024) hz]

/-- Middle tile: the sum-of-squares accumulator ends at its update applied to the tile and to what it held. -/
theorem sqAcc_B (hc0 : ¬cond0_0 i) (hc1 : ¬cond0_1 i) (x : Vec F S1024x1024 .f32) (xs0 : Vec F S1x1024 .f32) (xs1 : Vec F S1x1 .f32) :
    sout0_B_1 c i a1 h1 a2 h2 a3 h3 a4 h4 hc0 hc1 x xs0 xs1 = k0_pay4 x xs1 := by
  unfold sout0_B_1
  rw [View.read_writes_eq_canon _ _ _ (scover0_B_1 c i a1 h1 a2 h2 a3 h3 a4 h4 hc0 hc1 x xs0 xs1)]
  unfold kernelRun0_B
  dsimp only
  rw [View.canon_unit_zero (S := S1x1) hz]
  simp only [View.readAt_eq_ld, h1.read_unread, h4.read_unread, View.ld_unit_zero (S := S1024x1024) hz,
    View.ld_unit_zero (S := S1x1) hz]

/-! ## The last tile: update, then the result -/

/-- Last tile: the column-sum accumulator is updated as at a middle tile. -/
theorem colAcc_C (hc0 : ¬cond0_0 i) (hc1 : cond0_1 i) (x : Vec F S1024x1024 .f32) (xs0 : Vec F S1x1024 .f32) (xs1 : Vec F S1x1 .f32) :
    sout0_C_0 c i a1 h1 a2 h2 a3 h3 a4 h4 hc0 hc1 x xs0 xs1 = k0_pay3 x xs0 := by
  unfold sout0_C_0
  rw [View.read_writes_eq_canon _ _ _ (scover0_C_0 c i a1 h1 a2 h2 a3 h3 a4 h4 hc0 hc1 x xs0 xs1)]
  unfold kernelRun0_C
  dsimp only
  sl_unfold_words
  rw [View.canon_unit_zero (S := S1x1024) hz]
  simp only [View.readAt_eq_ld, h1.read_unread, h3.read_unread, View.ld_unit_zero (S := S1024x1024) hz,
    View.ld_unit_zero (S := S1x1024) hz]

/-- Last tile: the sum-of-squares accumulator is updated as at a middle tile. -/
theorem sqAcc_C (hc0 : ¬cond0_0 i) (hc1 : cond0_1 i) (x : Vec F S1024x1024 .f32) (xs0 : Vec F S1x1024 .f32) (xs1 : Vec F S1x1 .f32) :
    sout0_C_1 c i a1 h1 a2 h2 a3 h3 a4 h4 hc0 hc1 x xs0 xs1 = k0_pay4 x xs1 := by
  unfold sout0_C_1
  rw [View.read_writes_eq_canon _ _ _ (scover0_C_1 c i a1 h1 a2 h2 a3 h3 a4 h4 hc0 hc1 x xs0 xs1)]
  unfold kernelRun0_C
  dsimp only
  sl_unfold_words
  rw [View.canon_unit_zero (S := S1x1) hz]
  simp only [View.readAt_eq_ld, h1.read_unread, h4.read_unread, View.ld_unit_zero (S := S1024x1024) hz,
    View.ld_unit_zero (S := S1x1) hz]

/-- Last tile: the output block is the result computed from the two accumulators as just updated (the loads that feed it
    read back what the updates stored). -/
theorem out_C (hc0 : ¬cond0_0 i) (hc1 : cond0_1 i) (x : Vec F S1024x1024 .f32) (xs0 : Vec F S1x1024 .f32) (xs1 : Vec F S1x1 .f32) :
    out0_C_1 c i a1 h1 a2 h2 a3 h3 a4 h4 hc0 hc1 x xs0 xs1 = k0_pay5 (k0_pay3 x xs0) (k0_pay4 x xs1) := by
  unfold out0_C_1
  rw [View.read_writes_eq_canon _ _ _ (cover0_C_1 c i a1 h1 a2 h2 a3 h3 a4 h4 hc0 hc1 x xs0 xs1)]
  unfold kernelRun0_C
  dsimp only
  sl_unfold_words
  rw [View.canon_unit_zero (S := S1x1) hz, View.readCov_unit_zero (S := S1x1024) _ hz,
    View.readCov_unit_zero (S := S1x1) _ hz]
  simp only [View.readAt_eq_ld, h1.read_unread, h3.read_unread, h4.read_unread, View.ld_unit_zero (S := S1024x1024) hz,
    View.ld_unit_zero (S := S1x1024) hz, View.ld_unit_zero (S := S1x1) hz]

end Cases

/-! ## The accumulators tile after tile -/

section Chain

variable (m : (ℓ : Loc nD τ sig) → Buf (Elt F) ℓ)

/-- Tile t of the input, as the body finds it in its staging buffer. -/
abbrev tile (c : Dev nD) (t : Fin cfg0.N) : Vec F S1024x1024 .f32 := iblk m c 0 t

/-- The two accumulators after tile n: the updates applied tile after tile, starting from the reset values. -/
def accs (c : Dev nD) : (n : ℕ) → n < cfg0.N → Vec F S1x1024 .f32 × Vec F S1x1 .f32
  | 0, h => (k0_pay3 (tile m c ⟨0, h⟩) (k0_pay1 (F := F)), k0_pay4 (tile m c ⟨0, h⟩) (k0_pay2 (F := F)))
  | n + 1, h => (k0_pay3 (tile m c ⟨n + 1, h⟩) (accs c n (Nat.lt_of_succ_lt h)).1,
      k0_pay4 (tile m c ⟨n + 1, h⟩) (accs c n (Nat.lt_of_succ_lt h)).2)

/-- What the two scratch buffers hold after tile n is those accumulators: by induction on the tile. -/
theorem outsAt_accs (c : Dev nD) : ∀ (n : ℕ) (h : n < cfg0.N), (outsAt0 m c n h).2 = accs m c n h
  | 0, h => by
    rw [outsAt0_A m c ⟨0, h⟩ rfl (by dsimp only; omega)]
    dsimp only
    rw [colAcc_A, sqAcc_A]
    rfl
  | n + 1, h => by
    have hN : cfg0.N = 8 := N_0
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]
      dsimp only
      rw [colAcc_C, sqAcc_C]
      show (k0_pay3 _ (outsAt0 m c n _).2.1, k0_pay4 _ (outsAt0 m c n _).2.2) = (k0_pay3 _ (accs m c n _).1, k0_pay4 _ (accs m c n _).2)
      rw [outsAt_accs c n]
    · rw [outsAt0_B m c ⟨n + 1, h⟩ h0 h1]
      dsimp only
      rw [colAcc_B, sqAcc_B]
      show (k0_pay3 _ (outsAt0 m c n _).2.1, k0_pay4 _ (outsAt0 m c n _).2.2) = (k0_pay3 _ (accs m c n _).1, k0_pay4 _ (accs m c n _).2)
      rw [outsAt_accs c n]

/-- The output block the last tile stores: the result computed from the accumulators after all eight tiles. -/
theorem out_last (c : Dev nD) (h : 7 < cfg0.N) :
    (outsAt0 m c 7 h).1 = k0_pay5 (accs m c 7 h).1 (accs m c 7 h).2 := by
  rw [outsAt0_C m c ⟨7, h⟩ (by dsimp only; omega) rfl]
  dsimp only
  rw [out_C]
  show k0_pay5 (k0_pay3 _ (outsAt0 m c 6 _).2.1) (k0_pay4 _ (outsAt0 m c 6 _).2.2) = k0_pay5 (k0_pay3 _ (accs m c 6 _).1) (k0_pay4 _ (accs m c 6 _).2)
  rw [outsAt_accs m c 6]

end Chain

end Cert.KernelPieces

end
-- ==== Proof.KernelValue.lean ====
/-
  The kernel's run, with its result named.

  The output window is one 1 x 1 block that is the whole 1 x 1 array, and it is written back once, after the last tile.
  So that array ends at the block the last tile stored: the result computed from the two accumulators after all eight
  tiles. The program's result is that array with both unit axes dropped.
-/
import proofs.«139503_j21088289423831_1_alg».proof.Proof.KernelPieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelValue

open Cert.KernelIdeal Cert.KernelIdeal.Gen Cert.KernelPieces

variable {F : FTy → Type} [FloatOps F]
variable (m : (ℓ : Loc nD τ sig) → Buf (Elt F) ℓ) (ρ : Dev nD → PrngReg)

/-- The grid has a tile number 7 (its last). -/
theorem last_lt : 7 < cfg0.N := by rw [show cfg0.N = 8 from N_0]; decide

/-- The block the last tile stores, as contents of the 1 x 1 output array. -/
abbrev result (c : Dev nD) : Buf (Elt F) ((c : Thread nD τ).loc main_call0_v0) :=
  k0_pay5 (accs m c 7 last_lt).1 (accs m c 7 last_lt).2

/-- The one write-back, after tile 7, writes that block: the block at offsets zero of a 1 x 1 array is the array. -/
theorem flushed_eq (c : Dev nD) (t : Fin cfg0.N) (hf : (cfg0.win 1).flush t = true) :
    (dats m 0 c).flushed 1 t = ((cfg0.win 1).blk t).view.read (Elt F) (result m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1, show (outsAt0 m c t0_7.val t0_7.isLt).1 = result m c from out_last m c _]
  have hz' : (fun a => win0_1.index t0_7 a * main_call0_v0.ty.shape.size a) = fun _ => 0 :=
    funext fun a => by fin_cases a <;> decide
  exact (Memref.read_access_unit_zero (Elt F) main_call0_v0 hz' (fun a => by rw [congrFun hz' a]; simp) (result m c)).symm

/-- So the output array ends holding that block: the write-back after tile 7 covers its one entry. -/
theorem final_out (c : Dev nD) : (dats m 0 c).arrAt 1 cfg0.N = result m c :=
  (dats m 0 c).arrAt_eq_of_cover 1 (result m c) (flushed_eq m c) fun i =>
    ⟨t0_7, (flush0_1 t0_7).mpr rfl, by
      show i ∈ ((View.whole main_call0_v0).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_7 0 * win0_1.size 0 ≤ (i 0 : Nat)
          ∧ (i 0 : Nat) < win0_1.index t0_7 0 * win0_1.size 0 + win0_1.xsize (grid0.coords t0_7) 0
        rw [show win0_1.index t0_7 0 * win0_1.size 0 = 0 from by decide +kernel,
          show win0_1.xsize (grid0.coords t0_7) 0 = 1 from by decide +kernel]
        omega
      | ⟨1, _⟩ =>
        show win0_1.index t0_7 1 * win0_1.size 1 ≤ (i 1 : Nat)
          ∧ (i 1 : Nat) < win0_1.index t0_7 1 * win0_1.size 1 + win0_1.xsize (grid0.coords t0_7) 1
        rw [show win0_1.index t0_7 1 * win0_1.size 1 = 0 from by decide +kernel,
          show win0_1.xsize (grid0.coords t0_7) 1 = 1 from by decide +kernel]
        omega⟩

/-- The line after the region drops the two unit axes of the output array. -/
theorem tail_eq (c : Dev nD) :
    Pipeline.afterTail₀ cfgs (dats m) 0 (V0 m) [hostOps1] c main_v0 = shapeCast S_ (result m c) shapeCasts_S1x1_S_ := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v0)
      = result m c :=
    (Pipeline.withArrays_arr spec0 winFacts0.arr_inj c (V0 m c) (fun w => (dats m 0 c).arrAt w cfg0.N) 1).trans (final_out m c)
  exact funext fun i => congrFun (congrArg (fun v => shapeCast S_ v shapeCasts_S1x1_S_) e) i

/-- The run, read: every weakly fair execution ends with the program's result at the last tile's block with its unit axes
    dropped, and the argument unchanged. -/
theorem run : θ_run defs (onTc (τ := τ) (main (F := F))) ⟨m, fun _ => 0, ρ⟩ fun r => ∀ c : Dev nD,
    r.2.mem ((c.tc : Thread nD τ).loc main_v0) = shapeCast S_ (result m c) shapeCasts_S1x1_S_
    ∧ r.2.mem ((c.tc : Thread nD τ).loc main_arg0) = m ((c.tc : Thread nD τ).loc main_arg0) :=
  (θ_run defs _ _).mono (fun _ h c =>
    ⟨((h c).2 main_v0 (by decide)).trans (tail_eq m c),
     ((h c).1 0).trans (((dats m 0 c).arrAt_in 0 rfl _).trans ((A_eq m c 0).trans (V_main_arg0 m c)))⟩) (run_main m ρ)

end Cert.KernelValue

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.KernelPayloads.lean ====
/-
  The five values the kernel body stores, read at an index at the ideal values.

  The body keeps two accumulators across the eight tiles: a row vector of 1024 column sums and one scalar sum of squares.
  At the first tile both are reset to zero; at every tile the column sums of the tile (the tile summed over its 1024 rows)
  are added to the first, and the sum over the tile's rows of each row's sum of squares is added to the second; at the last
  tile the result is one half of (the sum of the squared column sums minus the sum of squares).
-/
import proofs.«139503_j21088289423831_1_alg».proof.Proof.Gen.KernelIdeal.Skeleton
import proofs.«139503_j21088289423831_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayloads

open Cert.KernelIdeal Cert.KernelIdeal.Gen Idealize.ShloMosaic Idealize.ShloMosaic.ValueIdx

/-- The reset value of the column-sum accumulator is zero everywhere. -/
theorem zeroRow_apply (j : S1x1024.Idx) : k0_pay1 (F := Ideal) j = 0 := by
  unfold k0_pay1
  rw [shapeCast_self, broadcast_apply]
  exact Ideal.ofBits_zero_f32

/-- The reset value of the sum-of-squares accumulator is zero. -/
theorem zeroCell_apply (j : S1x1.Idx) : k0_pay2 (F := Ideal) j = 0 := by
  unfold k0_pay2
  rw [shapeCast_self, broadcast_apply]
  exact Ideal.ofBits_zero_f32

/-- The column-sum update: entry k of the accumulator gains the sum of column k of the tile. -/
theorem colUpdate_apply (x : Vec Ideal S1024x1024 .f32) (a : Vec Ideal S1x1024 .f32) (u : Fin 1) (k : Fin 1024) :
    k0_pay3 (F := Ideal) x a (ix2 u k) = a (ix2 u k) + ∑ p : Fin 1024, x (ix2 p k) := by
  unfold k0_pay3
  dsimp only
  rw [shapeCast_self, addf_apply, shapeCast_a_1a_apply]
  exact congrArg (fun z => a (ix2 u k) + z) (Cert.LibColumns.colSum_apply x _ _ _ _ k)

/-- The sum-of-squares update: the accumulator gains the sum over the tile's rows of each row's sum of squares. -/
theorem sqUpdate_apply (x : Vec Ideal S1024x1024 .f32) (q : Vec Ideal S1x1 .f32) (u v : Fin 1) :
    k0_pay4 (F := Ideal) x q (ix2 u v) = q (ix2 u v) + ∑ p : Fin 1024, ∑ k : Fin 1024, x (ix2 p k) * x (ix2 p k) := by
  unfold k0_pay4
  dsimp only
  rw [shapeCast_self, addf_apply, shapeCast_a_1a_apply]
  refine congrArg (fun z => q (ix2 u v) + z)
    ((Cert.LibColumns.colSum_apply _ _ _ _ _ v).trans (Finset.sum_congr rfl fun p _ => ?_))
  refine (Cert.LibColumns.shapeCast_a_a1_apply _ _ p v).trans ((Cert.LibColumns.rowSum_apply _ _ _ _ _ p).trans ?_)
  rfl

/-- The result: one half of the sum of the squared column sums minus the sum of squares. -/
theorem result_apply (a : Vec Ideal S1x1024 .f32) (q : Vec Ideal S1x1 .f32) (u v : Fin 1) :
    k0_pay5 (F := Ideal) a q (ix2 u v)
      = Ideal.ofBits .f32 0x3F000000#32 * ((∑ k : Fin 1024, a (ix2 (0 : Fin 1) k) * a (ix2 (0 : Fin 1) k)) - q (ix2 u v)) := by
  unfold k0_pay5
  dsimp only
  rw [mulf_apply, broadcast_apply, subf_apply, shapeCast_a_1a_apply]
  refine congrArg (fun z => Ideal.ofBits .f32 0x3F000000#32 * (z - q (ix2 u v)))
    ((Cert.LibColumns.rowSum_apply (mulf a a) _ _ _ _ v).trans ?_)
  have hv : v = 0 := Subsingleton.elim _ _
  subst hv
  rfl

end Cert.KernelPayloads

end
-- ==== Proof.GramAlgebra.lean ====
/-
  The strict upper triangle of a Gram matrix, summed.

  For a real matrix x with rows x_i the Gram matrix G_ij = <x_i, x_j> is symmetric, so the sum of all its entries is twice
  the sum over i < j plus its trace. The sum of all entries is the squared length of the vector of column sums,
  sum_k (sum_i x_ik)^2, and the trace is the sum of all squared entries. Hence

      sum_{i<j} G_ij = 1/2 * ( sum_k (sum_i x_ik)^2 - sum_{i,k} x_ik^2 ).

  The law subtracts and halves, so it is a law of the reals and not of the extended reals: it is proved over the reals
  and carried to the extended reals along the coercion, for entries that are real.  Also here: a sum over 8 * 1024 rows
  taken tile by tile, in any commutative monoid (no finiteness is needed to regroup a sum).
-/
import Idealize.ShloMosaic.PureOps.Ideal
import Mathlib.Tactic.Linarith
import Mathlib.Tactic.Ring
import Mathlib.Algebra.BigOperators.Fin
import Mathlib.Logic.Equiv.Fin.Basic

noncomputable section

namespace Cert.GramAlgebra

open Finset

/-- Over the reals: the entries of the Gram matrix strictly above the diagonal sum to half of the squared column sums
    minus the squared entries. The triangle is written as the reference masks it: zero where the column index is at most
    the row index. -/
theorem triu_gram_sum {n : ℕ} {κ : Type} [Fintype κ] (x : Fin n → κ → ℝ) :
    ∑ i, ∑ j, (if j ≤ i then (0 : ℝ) else ∑ k, x i k * x j k)
      = (1 / 2) * ((∑ k, (∑ i, x i k) * (∑ i, x i k)) - ∑ i, ∑ k, x i k * x i k) := by
  set G : Fin n → Fin n → ℝ := fun i j => ∑ k, x i k * x j k with hG
  have hsymm : ∀ i j, G i j = G j i := fun i j => Finset.sum_congr rfl fun k _ => mul_comm _ _
  -- the lower triangle is the upper one, by symmetry
  have hL : ∑ i, ∑ j, (if i ≤ j then (0 : ℝ) else G i j) = ∑ i, ∑ j, (if j ≤ i then (0 : ℝ) else G i j) := by
    rw [Finset.sum_comm]
    refine Finset.sum_congr rfl fun j _ => Finset.sum_congr rfl fun i _ => ?_
    rw [hsymm]
  -- every entry is above, below or on the diagonal
  have hsplit : ∀ i j, G i j
      = (if j ≤ i then (0 : ℝ) else G i j) + (if i ≤ j then (0 : ℝ) else G i j) + (if i = j then G i i else 0) := by
    intro i j
    rcases lt_trichotomy i j with h | h | h
    · rw [if_neg (not_le.mpr h), if_pos h.le, if_neg h.ne]; ring
    · subst h; simp
    · rw [if_pos h.le, if_neg (not_le.mpr h), if_neg h.ne']; ring
  have htot : ∑ i, ∑ j, G i j
      = (∑ i, ∑ j, (if j ≤ i then (0 : ℝ) else G i j)) + (∑ i, ∑ j, (if j ≤ i then (0 : ℝ) else G i j)) + ∑ i, G i i := by
    calc ∑ i, ∑ j, G i j
        = ∑ i, ∑ j, ((if j ≤ i then (0 : ℝ) else G i j) + (if i ≤ j then (0 : ℝ) else G i j)
            + (if i = j then G i i else 0)) :=
          Finset.sum_congr rfl fun i _ => Finset.sum_congr rfl fun j _ => hsplit i j
      _ = _ := by
          simp only [Finset.sum_add_distrib, Finset.sum_ite_eq, Finset.mem_univ, if_true]
          rw [hL]
  -- all entries: the squared column sums
  have hsq : ∑ i, ∑ j, G i j = ∑ k, (∑ i, x i k) * (∑ i, x i k) := by
    calc ∑ i, ∑ j, G i j = ∑ i, ∑ k, ∑ j, x i k * x j k :=
          Finset.sum_congr rfl fun i _ => Finset.sum_comm
      _ = ∑ k, ∑ i, ∑ j, x i k * x j k := Finset.sum_comm
      _ = _ := Finset.sum_congr rfl fun k _ => by rw [Finset.sum_mul_sum]
  linarith

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law on the extended reals, for a matrix of real entries: half the squared column sums minus the squared
    entries is the masked sum of the Gram matrix. -/
theorem triu_gram_sum_ereal {n : ℕ} {κ : Type} [Fintype κ] (x : Fin n → κ → ℝ) :
    ((1 / 2 : ℝ) : EReal) * ((∑ k, (∑ i, (x i k : EReal)) * (∑ i, (x i k : EReal))) - ∑ i, ∑ k, (x i k : EReal) * (x i k : EReal))
      = ∑ i, ∑ j, (if j ≤ i then (0 : EReal) else ∑ k, (x i k : EReal) * (x j k : EReal)) := by
  have hite : ∀ i j : Fin n, (if j ≤ i then (0 : EReal) else ∑ k, (x i k : EReal) * (x j k : EReal))
      = (((if j ≤ i then (0 : ℝ) else ∑ k, x i k * x j k) : ℝ) : EReal) := by
    intro i j
    split
    · simp
    · simp only [coe_sum, EReal.coe_mul]
  simp only [hite]
  simp only [← EReal.coe_mul, ← coe_sum, ← EReal.coe_sub]
  exact congrArg _ (triu_gram_sum x).symm

/-- A sum over 8 * 1024 rows is the sum over 8 tiles of the sum over each tile's 1024 rows (row 1024 * t + p of the
    whole is row p of tile t), in any commutative monoid. -/
theorem sum_tiles {M : Type} [AddCommMonoid M] (f : Fin 8192 → M) :
    ∑ i, f i = ∑ t : Fin 8, ∑ p : Fin 1024, f ⟨1024 * t.val + p.val, by omega⟩ := by
  rw [← Equiv.sum_comp (finProdFinEquiv : Fin 8 × Fin 1024 ≃ Fin (8 * 1024)) f, Fintype.sum_prod_type]
  refine Finset.sum_congr rfl fun t _ => Finset.sum_congr rfl fun p _ => congrArg f (Fin.ext ?_)
  show p.val + 1024 * t.val = 1024 * t.val + p.val
  omega

end Cert.GramAlgebra

end
-- ==== Proof.KernelRead.lean ====
/-
  The kernel's result at the ideal values, as a formula in the entries of the input.

  Tile t of the input holds rows 1024 t, ..., 1024 t + 1023. After tile n the column-sum accumulator holds, in column k,
  the sum over the tiles 0..n of the tile's column-k sum, and the sum-of-squares accumulator the sum over those tiles of
  the tile's squared entries; sums of extended reals regroup freely, so after the eighth tile these are the full column
  sums and the sum of all squared entries. The result is one half of the sum of the squared column sums minus the sum of
  the squared entries.
-/
import proofs.«139503_j21088289423831_1_alg».proof.Proof.KernelValue
import proofs.«139503_j21088289423831_1_alg».proof.Proof.KernelPayloads
import proofs.«139503_j21088289423831_1_alg».proof.Proof.GramAlgebra

noncomputable section

open Idealize.ShloMosaic Idealize.ShloMosaic.TcCoe Idealize.SL.Sem Idealize.ShloMosaic.ValueIdx

namespace Cert.KernelRead

open Cert.KernelIdeal Cert.KernelIdeal.Gen Cert.KernelPieces Cert.KernelValue

variable (m : (ℓ : Loc nD τ sig) → Buf (Elt Ideal) ℓ)

/-- The input array on core c. -/
abbrev input (c : Dev nD) : S8192x1024.Idx → EReal := m ((c : Thread nD τ).loc main_arg0)

/-- Entry (j, k) of an 8192 x 1024 array by the row's number, zero past the last row. -/
def row (X : S8192x1024.Idx → EReal) (j : ℕ) (k : Fin 1024) : EReal := if h : j < 8192 then X (ix2 ⟨j, h⟩ k) else 0

theorem row_of_lt (X : S8192x1024.Idx → EReal) (j : ℕ) (h : j < 8192) (k : Fin 1024) : row X j k = X (ix2 ⟨j, h⟩ k) :=
  dif_pos h

/-- A sum over the 8192 rows, taken tile by tile over a range of tile numbers. -/
theorem sum_tiles_range {M : Type} [AddCommMonoid M] (f : Fin 8192 → M) (G : ℕ → M)
    (hG : ∀ (j : ℕ) (h : j < 8192), G j = f ⟨j, h⟩) :
    ∑ t ∈ Finset.range 8, ∑ p : Fin 1024, G (1024 * t + p.val) = ∑ i, f i := by
  rw [Cert.GramAlgebra.sum_tiles f, Finset.sum_range]
  exact Finset.sum_congr rfl fun t _ => Finset.sum_congr rfl fun p _ => hG _ _

/-- Tile t's block index: its row blocks advance with t, its one column block stays. -/
theorem idx_row : ∀ t : Fin cfg0.N, win0_0.index t (0 : Fin 2) = t.val :=
  (by decide +kernel : ∀ t : Fin grid0.N, win0_0.index t (0 : Fin 2) = t.val)
theorem idx_col : ∀ t : Fin cfg0.N, win0_0.index t (1 : Fin 2) = 0 :=
  (by decide +kernel : ∀ t : Fin grid0.N, win0_0.index t (1 : Fin 2) = 0)

/-- Entry (p, k) of tile t is entry (1024 t + p, k) of the input. -/
theorem tile_apply (c : Dev nD) (t : Fin cfg0.N) (p k : Fin 1024) :
    tile m c t (ix2 p k) = row (input m c) (1024 * t.val + p.val) k := by
  have hN : cfg0.N = 8 := N_0
  have ht := t.isLt
  have hlt : 1024 * t.val + p.val < 8192 := by omega
  rw [row_of_lt _ _ hlt]
  show V m c main_arg0 (((cfg0.win 0).blk t).view.emb (ix2 p k)) = _
  rw [V_main_arg0]
  refine congrArg _ (funext fun a => Fin.ext ?_)
  match a with
  | ⟨0, _⟩ =>
    show win0_0.index t 0 * 1024 + 1 * p.val = 1024 * t.val + p.val
    rw [idx_row t]; omega
  | ⟨1, _⟩ =>
    show win0_0.index t 1 * 1024 + 1 * k.val = k.val
    rw [idx_col t]; omega

/-- The column-sum accumulator after tile n, column k: the tiles' column-k sums, summed over the tiles 0..n. -/
theorem colAcc_apply (c : Dev nD) : ∀ (n : ℕ) (h : n < cfg0.N) (u : Fin 1) (k : Fin 1024),
    (accs m c n h).1 (ix2 u k) = ∑ t ∈ Finset.range (n + 1), ∑ p : Fin 1024, row (input m c) (1024 * t + p.val) k
  | 0, h, u, k => by
    refine (Cert.KernelPayloads.colUpdate_apply (tile m c ⟨0, h⟩) (k0_pay1 (F := Ideal)) u k).trans ?_
    rw [Cert.KernelPayloads.zeroRow_apply, zero_add, Finset.sum_range_one]
    exact Finset.sum_congr rfl fun p _ => tile_apply m c ⟨0, h⟩ p k
  | n + 1, h, u, k => by
    refine (Cert.KernelPayloads.colUpdate_apply (tile m c ⟨n + 1, h⟩) (accs m c n (Nat.lt_of_succ_lt h)).1 u k).trans ?_
    refine Eq.trans ?_ (Finset.sum_range_succ (fun t => ∑ p : Fin 1024, row (input m c) (1024 * t + p.val) k) (n + 1)).symm
    rw [colAcc_apply c n (Nat.lt_of_succ_lt h) u k]
    exact congrArg _ (Finset.sum_congr rfl fun p _ => tile_apply m c ⟨n + 1, h⟩ p k)

/-- The sum-of-squares accumulator after tile n: the tiles' squared entries, summed over the tiles 0..n. -/
theorem sqAcc_apply (c : Dev nD) : ∀ (n : ℕ) (h : n < cfg0.N) (u v : Fin 1),
    (accs m c n h).2 (ix2 u v)
      = ∑ t ∈ Finset.range (n + 1), ∑ p : Fin 1024, ∑ k : Fin 1024,
          row (input m c) (1024 * t + p.val) k * row (input m c) (1024 * t + p.val) k
  | 0, h, u, v => by
    refine (Cert.KernelPayloads.sqUpdate_apply (tile m c ⟨0, h⟩) (k0_pay2 (F := Ideal)) u v).trans ?_
    rw [Cert.KernelPayloads.zeroCell_apply, zero_add, Finset.sum_range_one]
    exact Finset.sum_congr rfl fun p _ => Finset.sum_congr rfl fun k _ => by rw [tile_apply m c ⟨0, h⟩ p k]
  | n + 1, h, u, v => by
    refine (Cert.KernelPayloads.sqUpdate_apply (tile m c ⟨n + 1, h⟩) (accs m c n (Nat.lt_of_succ_lt h)).2 u v).trans ?_
    refine Eq.trans ?_ (Finset.sum_range_succ (fun t => ∑ p : Fin 1024, ∑ k : Fin 1024,
      row (input m c) (1024 * t + p.val) k * row (input m c) (1024 * t + p.val) k) (n + 1)).symm
    rw [sqAcc_apply c n (Nat.lt_of_succ_lt h) u v]
    exact congrArg _ (Finset.sum_congr rfl fun p _ => Finset.sum_congr rfl fun k _ => by rw [tile_apply m c ⟨n + 1, h⟩ p k])

/-- The program's result: one half of the sum over the columns of the squared column sums minus the sum of all squared
    entries. -/
theorem result_apply (c : Dev nD) (z : S_.Idx) :
    shapeCast S_ (result m c) shapeCasts_S1x1_S_ z
      = Ideal.ofBits .f32 0x3F000000#32
        * ((∑ k : Fin 1024, (∑ i : Fin 8192, input m c (ix2 i k)) * (∑ i : Fin 8192, input m c (ix2 i k)))
          - ∑ i : Fin 8192, ∑ k : Fin 1024, input m c (ix2 i k) * input m c (ix2 i k)) := by
  have hk : (S1x1.rowMajor (ix2 (0 : Fin 1) (0 : Fin 1))).val = (S_.rowMajor z).val := by
    have h1 := (S1x1.rowMajor (ix2 (0 : Fin 1) (0 : Fin 1))).isLt
    have e1 : S1x1.numel = 1 := by decide
    have h2 := (S_.rowMajor z).isLt
    have e2 : S_.numel = 1 := by decide
    omega
  refine (shapeCast_apply (s := S1x1) (t := S_) (result m c) shapeCasts_S1x1_S_ z (ix2 (0 : Fin 1) (0 : Fin 1)) hk).trans ?_
  refine (Cert.KernelPayloads.result_apply (accs m c 7 last_lt).1 (accs m c 7 last_lt).2 0 0).trans ?_
  have hC : ∀ k : Fin 1024, (accs m c 7 last_lt).1 (ix2 (0 : Fin 1) k) = ∑ i : Fin 8192, input m c (ix2 i k) := fun k =>
    (colAcc_apply m c 7 last_lt 0 k).trans
      (sum_tiles_range (fun i => input m c (ix2 i k)) (fun j => row (input m c) j k) fun j h => row_of_lt _ j h k)
  have hQ : (accs m c 7 last_lt).2 (ix2 (0 : Fin 1) (0 : Fin 1))
      = ∑ i : Fin 8192, ∑ k : Fin 1024, input m c (ix2 i k) * input m c (ix2 i k) :=
    (sqAcc_apply m c 7 last_lt 0 0).trans
      (sum_tiles_range (fun i => ∑ k : Fin 1024, input m c (ix2 i k) * input m c (ix2 i k))
        (fun j => ∑ k : Fin 1024, row (input m c) j k * row (input m c) j k)
        fun j h => Finset.sum_congr rfl fun k _ => by rw [row_of_lt _ j h k])
  simp only [hC, hQ]

end Cert.KernelRead

end
-- ==== Proof.RefValue.lean ====
/-
  What the reference computes, at the ideal values.

  The reference forms the Gram matrix G = X Xᵀ of the 8192 rows, keeps the entries strictly above the diagonal (the mask
  is the comparison row + 0 ≥ column of two index grids, under which the entry is replaced by zero) and sums what is left
  over both axes, starting from zero. Entry (i, j) of G is the product of rows i and j summed over the 1024 columns.
-/
import proofs.«139503_j21088289423831_1_alg».proof.Proof.Gen.ReferenceIdeal.Read
import Idealize.ShloMosaic.Lib.ValueIdx
import Idealize.ShloMosaic.Lib.StableHlo.Predicate
import Idealize.ShloMosaic.PureOps.Ideal.Laws

noncomputable section

namespace Cert.RefValue

open Cert.ReferenceIdeal Cert.ReferenceIdeal.Read Idealize.ShloMosaic Idealize.ShloMosaic.ValueIdx

/-- The mask is set exactly on and below the diagonal: the row index, plus the zero offset, is at least the column
    index. Both are below 8192, so the signed word comparison is the comparison of the numbers. -/
theorem mask_iff (i j : Fin 8192) : val_main_call0_v4 (F := Ideal) (ix2 i j) = 1#1 ↔ j ≤ i := by
  rw [val_main_call0_v4_apply, val_main_call0_v2_apply, val_main_call0_v0_apply, val_main_call0_v1_apply,
    val_main_call0_c_apply, val_main_call0_v3_apply]
  show IntOp.cmpi .sge (IntOp.addi (BitVec.ofNat 32 i.val) 0#32) (BitVec.ofNat 32 j.val) = 1#1 ↔ j ≤ i
  have hi := i.isLt
  have hj := j.isLt
  have e : IntOp.addi (BitVec.ofNat 32 i.val) 0#32 = BitVec.ofNat 32 i.val := by
    unfold IntOp.addi; exact BitVec.add_zero _
  have ti : (BitVec.ofNat 32 i.val).toNat = i.val := by
    rw [BitVec.toNat_ofNat]; exact Nat.mod_eq_of_lt (by omega)
  have tj : (BitVec.ofNat 32 j.val).toNat = j.val := by
    rw [BitVec.toNat_ofNat]; exact Nat.mod_eq_of_lt (by omega)
  rw [e, StableHlo.Predicate.sge_iff_toNat (by rw [ti]; omega) (by rw [tj]; omega), ti, tj]
  exact Fin.le_def.symm

/-- Entry (i, j) of the Gram matrix: rows i and j multiplied column by column and summed. -/
theorem gram_apply (X : S8192x1024.Idx → EReal) (i j : Fin 8192) :
    val_main_v1 (F := Ideal) X (ix2 i j) = ∑ k : Fin 1024, X (ix2 i k) * X (ix2 j k) := by
  rw [val_main_v1_apply]
  refine Finset.sum_congr rfl fun k _ => ?_
  rw [val_main_v0_apply]
  have el : lidx_main_v1 (ix2 i j) k = ix2 i k :=
    funext fun a => Fin.ext (by match a with | ⟨0, _⟩ => rfl | ⟨1, _⟩ => rfl)
  have er : idx_main_v0 (ridx_main_v1 (ix2 i j) k) = ix2 j k :=
    funext fun a => Fin.ext (by match a with | ⟨0, _⟩ => rfl | ⟨1, _⟩ => rfl)
  rw [el, er]

/-- The masked Gram entry: zero on and below the diagonal, the Gram entry above it. -/
theorem triu_apply (X : S8192x1024.Idx → EReal) (i j : Fin 8192) :
    val_main_v2 (F := Ideal) X (ix2 i j) = if j ≤ i then (0 : EReal) else ∑ k : Fin 1024, X (ix2 i k) * X (ix2 j k) := by
  rw [val_main_v2_apply]
  by_cases h : j ≤ i
  · rw [if_pos h, (mask_iff i j).mpr h, select_one, val_main_call0_v5_apply, val_main_call0_cst_apply]
    exact Ideal.ofBits_zero_f32
  · rw [if_neg h, eq_zero_of_ne_one (fun e => h ((mask_iff i j).mp e)), select_zero, gram_apply]

/-- The reference's result: zero plus the sum over all (i, j) of the masked Gram entries. -/
theorem result_apply (X : S8192x1024.Idx → EReal) (z : S_.Idx) :
    val_main_v3 (F := Ideal) X z
      = 0 + ∑ i : Fin 8192, ∑ j : Fin 8192, (if j ≤ i then (0 : EReal) else ∑ k : Fin 1024, X (ix2 i k) * X (ix2 j k)) := by
  rw [val_main_v3_apply, val_main_cst_apply, sum_idx2]
  refine congrArg₂ _ Ideal.ofBits_zero_f32 ?_
  exact Finset.sum_congr rfl fun i _ => Finset.sum_congr rfl fun j _ => triu_apply X i j

end Cert.RefValue

end
-- ==== Proof.Finite.lean ====
/-
  The precondition read back: every entry of the input is a real number.

  The precondition says that the absolute value of every entry is below the pattern of plus infinity; it is one
  conjunction over all entries, so each entry satisfies it. An extended real whose absolute value max(x, -x) is below
  plus infinity is neither infinity.
-/
import proofs.«139503_j21088289423831_1_alg».proof.Pre_finite_inputs
import proofs.«139503_j21088289423831_1_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.Finite

open Idealize.ShloMosaic

/-- A rank-0 array has one index. -/
instance : Subsingleton Cert.Pre_finite_inputs.S_.Idx := ⟨fun _ _ => funext fun d => d.elim0⟩

/-- The pattern the entries are compared with is plus infinity. -/
theorem ofBits_inf : Ideal.ofBits .f32 0x7F800000#32 = (⊤ : EReal) := by
  simp [Ideal.ofBits, Ideal.ieee]

/-- An extended real of absolute value below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the input array is a real number. -/
theorem real_of_pre (X : FVec Ideal Cert.Pre_finite_inputs.S8192x1024 .f32)
    (h : Cert.Pre_finite_inputs.fn (F := Ideal) X = fun _ => 1#1) (i : Cert.Pre_finite_inputs.S8192x1024.Idx) :
    ∃ r : ℝ, X i = (r : EReal) := by
  have e := congrFun h ValueIdx.ix0
  dsimp only [Cert.Pre_finite_inputs.fn] at e
  have hi := Host.reduce_andi_all _ _ _ _ _ e i
  have h1 : Ideal.cmp .olt (max (X i) (-(X i))) (Ideal.ofBits .f32 0x7F800000#32) = 1#1 := hi
  rw [ofBits_inf] at h1
  have h2 : BitVec.ofBool (decide (max (X i) (-(X i)) < ⊤)) = 1#1 := h1
  exact real_of_abs_lt_top _ (of_decide_eq_true ((StableHlo.Predicate.ofBool_eq_one_iff _).mp h2))

end Cert.Finite

end
-- ==== Proof.Bridge.lean ====
/-
  The two formulas are one number when the entries are real.

  The kernel's result is one half of (the sum of the squared column sums minus the sum of the squared entries); the
  reference's is zero plus the sum of the Gram matrix over the pairs i < j. With every entry a real number both are the
  coercion of a real number, and the two real numbers are equal by the symmetry of the Gram matrix. The pattern of the
  kernel's factor is the real number 1/2.
-/
import proofs.«139503_j21088289423831_1_alg».proof.Proof.GramAlgebra
import Idealize.ShloMosaic.Lib.ValueIdx

noncomputable section

namespace Cert.Bridge

open Idealize.ShloMosaic Idealize.ShloMosaic.ValueIdx

/-- The pattern of the kernel's factor denotes one half. -/
theorem ofBits_half : Ideal.ofBits .f32 0x3F000000#32 = ((1 / 2 : ℝ) : EReal) := by
  simp [Ideal.ofBits, Ideal.ieee, -EReal.coe_mul]; norm_num

/-- For an 8192 x 1024 array of real entries: one half of the squared column sums minus the squared entries is zero plus
    the masked sum of the Gram matrix. -/
theorem gram_bridge (X : (⟨2, ![8192, 1024]⟩ : Shape).Idx → EReal) (hX : ∀ i, ∃ r : ℝ, X i = (r : EReal)) :
    Ideal.ofBits .f32 0x3F000000#32
        * ((∑ k : Fin 1024, (∑ i : Fin 8192, X (ix2 i k)) * (∑ i : Fin 8192, X (ix2 i k)))
          - ∑ i : Fin 8192, ∑ k : Fin 1024, X (ix2 i k) * X (ix2 i k))
      = 0 + ∑ i : Fin 8192, ∑ j : Fin 8192, (if j ≤ i then (0 : EReal) else ∑ k : Fin 1024, X (ix2 i k) * X (ix2 j k)) := by
  choose r hr using hX
  simp only [hr]
  rw [ofBits_half, zero_add]
  exact Cert.GramAlgebra.triu_gram_sum_ereal (fun i k => r (ix2 i k))

end Cert.Bridge

end
-- ==== Proof.lean ====
/-
  The sum of the strict upper triangle of a Gram matrix, computed without the Gram matrix.

  The reference forms G = X Xᵀ for X of 8192 rows and 1024 columns, replaces the entries on and below the diagonal by zero
  and sums. The kernel passes over X once in eight tiles of 1024 rows, accumulating the 1024 column sums and the sum of all
  squared entries, and returns one half of (the sum of the squared column sums minus the sum of the squared entries).

  Over the reals these agree: the sum of all entries of G is the sum over the columns of the squared column sums, its trace
  is the sum of the squared entries, and G is symmetric, so twice the strict upper triangle is the first minus the second.
  The law subtracts, so it needs the entries finite: the precondition gives that, and the two results are then the same real
  number. Regrouping the sums (tile by tile on one side, over the pairs on the other) needs no finiteness.

  The frames of the two kernel programs are the generated ones; the reference's frame is its generated run with the result
  dropped. The idealization rewrote nothing, so its conjunct is trivial.
-/
import proofs.«139503_j21088289423831_1_alg».proof.Defs
import proofs.«139503_j21088289423831_1_alg».proof.Proof.Gen.Kernel
import proofs.«139503_j21088289423831_1_alg».proof.Proof.Gen.Kernel.Frame
import proofs.«139503_j21088289423831_1_alg».proof.Proof.Gen.KernelIdeal
import proofs.«139503_j21088289423831_1_alg».proof.Proof.Gen.KernelIdeal.Frame
import proofs.«139503_j21088289423831_1_alg».proof.Proof.Gen.ReferenceIdeal
import proofs.«139503_j21088289423831_1_alg».proof.Proof.Gen.ReferenceIdeal.Run
import proofs.«139503_j21088289423831_1_alg».proof.Proof.Gen.ReferenceIdeal.Read
import proofs.«139503_j21088289423831_1_alg».proof.Proof.Gen.Pre_finite_inputs
import proofs.«139503_j21088289423831_1_alg».proof.Proof.KernelRead
import proofs.«139503_j21088289423831_1_alg».proof.Proof.RefValue
import proofs.«139503_j21088289423831_1_alg».proof.Proof.Finite
import proofs.«139503_j21088289423831_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its argument unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree and are finite, the kernel ends at one half of the squared column sums minus the squared
    entries, the reference at the masked sum of the Gram matrix, and these are equal. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, hagree c]
  funext z
  rw [Cert.RefValue.result_apply, Cert.KernelRead.result_apply]
  exact (Cert.Bridge.gram_bridge _ fun i => Cert.Finite.real_of_pre _ (hpre c) i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
